-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000 : Shape := ⟨1, ![320000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg6 : FVec F S1 .f32) (main_arg7 : FVec F S256x256 .f32) (main_arg8 : FVec F S256 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S10000x256 .f32) (main_arg1 : IVec S320000 32) (main_arg2 : IVec S320000 32) (main_arg3 : FVec F S256x512 .f32) (main_arg4 : FVec F S256 .f32) (main_arg5 : FVec F S1x256 .f32) (main_arg6 : FVec F S1 .f32) (main_arg7 : FVec F S256x256 .f32) (main_arg8 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x512 .f32 := Host.absf main_arg3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x256 .f32 := Host.absf main_arg5
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg6 main_arg7 main_arg8 main_v13 main_v16
-- ==== Kernel.lean ====
abbrev S10000x256 : Shape := ⟨2, ![10000, 256]⟩
abbrev S320000 : Shape := ⟨1, ![320000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S256x256 : Shape := ⟨2, ![256, 256]⟩
abbrev S_ : Shape := ⟨0, ![]⟩
abbrev S320000x1 : Shape := ⟨2, ![320000, 1]⟩
abbrev S320000x256 : Shape := ⟨2, ![320000, 256]⟩
abbrev S3200x256 : Shape := ⟨2, ![3200, 256]⟩
abbrev S3200x1 : Shape := ⟨2, ![3200, 1]⟩
abbrev S3200 : Shape := ⟨1, ![3200]⟩
abbrev S1x1 : Shape := ⟨2, ![1, 1]⟩
abbrev S10000x1 : Shape := ⟨2, ![10000, 1]⟩
abbrev S1000x256 : Shape := ⟨2, ![1000, 256]⟩

abbrev nBuf : Space → Nat
  | .hbm => 53
  | .vmem => 27
  | .smem => 0
  | _ => 0

abbrev bufTy : (tb : Table) → Fin (tcTables nBuf tb) → BufTy
  | .hbm, ⟨0, _⟩ => ⟨S10000x256, .f32⟩
  | .hbm, ⟨1, _⟩ => ⟨S320000, .i32⟩
  | .hbm, ⟨2, _⟩ => ⟨S320000, .i32⟩
  | .hbm, ⟨3, _⟩ => ⟨S256x512, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S256x256, .f32⟩
  | .hbm, ⟨8, _⟩ => ⟨S256, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x256, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x256, .f32⟩
  | .hbm, ⟨27, _⟩ => ⟨S256x256, .f32⟩
  | .hbm, ⟨28, _⟩ => ⟨S256x256, .f32⟩
  | .hbm, ⟨29, _⟩ => ⟨S320000x1, .f32⟩
  | .hbm, ⟨30, _⟩ => ⟨S320000x256, .f32⟩
  | .hbm, ⟨31, _⟩ => ⟨S_, .f32⟩
  | .hbm, ⟨32, _⟩ => ⟨S10000x1, .f32⟩
  | .hbm, ⟨33, _⟩ => ⟨S320000x1, .i32⟩
  | .hbm, ⟨34, _⟩ => ⟨S10000x1, .f32⟩
  | .hbm, ⟨35, _⟩ => ⟨S_, .f32⟩
  | .hbm, ⟨36, _⟩ => ⟨S10000x1, .f32⟩
  | .hbm, ⟨37, _⟩ => ⟨S10000x1, .f32⟩
  | .hbm, ⟨38, _⟩ => ⟨S_, .i32⟩
  | .hbm, ⟨39, _⟩ => ⟨S320000, .i32⟩
  | .hbm, ⟨40, _⟩ => ⟨S320000, .i1⟩
  | .hbm, ⟨41, _⟩ => ⟨S_, .i32⟩
  | .hbm, ⟨42, _⟩ => ⟨S320000, .i32⟩
  | .hbm, ⟨43, _⟩ => ⟨S320000, .i32⟩
  | .hbm, ⟨44, _⟩ => ⟨S320000, .i32⟩
  | .hbm, ⟨45, _⟩ => ⟨S320000x1, .i32⟩
  | .hbm, ⟨46, _⟩ => ⟨S320000x1, .f32⟩
  | .hbm, ⟨47, _⟩ => ⟨S320000x256, .f32⟩
  | .hbm, ⟨48, _⟩ => ⟨S_, .f32⟩
  | .hbm, ⟨49, _⟩ => ⟨S10000x256, .f32⟩
  | .hbm, ⟨50, _⟩ => ⟨S320000x1, .i32⟩
  | .hbm, ⟨51, _⟩ => ⟨S10000x256, .f32⟩
  | .hbm, ⟨52, _⟩ => ⟨S10000x256, .f32⟩
  | .local _ .vmem, ⟨0, _⟩ => ⟨S3200x256, .f32⟩
  | .local _ .vmem, ⟨1, _⟩ => ⟨S3200x256, .f32⟩
  | .local _ .vmem, ⟨2, _⟩ => ⟨S3200x256, .f32⟩
  | .local _ .vmem, ⟨3, _⟩ => ⟨S3200x256, .f32⟩
  | .local _ .vmem, ⟨4, _⟩ => ⟨S256x256, .f32⟩
  | .local _ .vmem, ⟨5, _⟩ => ⟨S256x256, .f32⟩
  | .local _ .vmem, ⟨6, _⟩ => ⟨S256, .f32⟩
  | .local _ .vmem, ⟨7, _⟩ => ⟨S1x256, .f32⟩
  | .local _ .vmem, ⟨8, _⟩ => ⟨S1, .f32⟩
  | .local _ .vmem, ⟨9, _⟩ => ⟨S256x256, .f32⟩
  | .local _ .vmem, ⟨10, _⟩ => ⟨S256, .f32⟩
  | .local _ .vmem, ⟨11, _⟩ => ⟨S3200x1, .f32⟩
  | .local _ .vmem, ⟨12, _⟩ => ⟨S3200x1, .f32⟩
  | .local _ .vmem, ⟨13, _⟩ => ⟨S3200x256, .f32⟩
  | .local _ .vmem, ⟨14, _⟩ => ⟨S3200x256, .f32⟩
  | .local _ .vmem, ⟨15, _⟩ => ⟨S3200x1, .f32⟩
  | .local _ .vmem, ⟨16, _⟩ => ⟨S3200x1, .f32⟩
  | .local _ .vmem, ⟨17, _⟩ => ⟨S3200x1, .f32⟩
  | .local _ .vmem, ⟨18, _⟩ => ⟨S3200x1, .f32⟩
  | .local _ .vmem, ⟨19, _⟩ => ⟨S3200x256, .f32⟩
  | .local _ .vmem, ⟨20, _⟩ => ⟨S3200x256, .f32⟩
  | .local _ .vmem, ⟨21, _⟩ => ⟨S3200x256, .f32⟩
  | .local _ .vmem, ⟨22, _⟩ => ⟨S3200x256, .f32⟩
  | .local _ .vmem, ⟨23, _⟩ => ⟨S1000x256, .f32⟩
  | .local _ .vmem, ⟨24, _⟩ => ⟨S1000x256, .f32⟩
  | .local _ .vmem, ⟨25, _⟩ => ⟨S1000x256, .f32⟩
  | .local _ .vmem, ⟨26, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc2_sem0_0 : DmaSem sig := 23
abbrev cc2_sem0_1 : DmaSem sig := 24
abbrev cc2_sem1_0 : DmaSem sig := 25
abbrev cc2_sem1_1 : DmaSem sig := 26

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3200x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3200x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3200x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  slices_S256x512_S256x256_0_0 : S256x512.Slices ![0, 0] S256x256
  slices_S256x512_S256x256_0_256 : S256x512.Slices ![0, 256] S256x256
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  inb_S256_S256_0 : ∀ a, (![0] : Fin 1 → Nat) a + S256.size a ≤ S256.size a
  h_S256 : 0 < S256.numel
  shapeCasts_S256_S1x256 : S256.ShapeCasts S1x256
  broadcasts_S1x256_S3200x256 : S1x256.Broadcasts S3200x256
  inb_S1x256_S1x256_0_0 : ∀ a, (![0, 0] : Fin 2 → Nat) a + S1x256.size a ≤ S1x256.size a
  h_S1x256 : 0 < S1x256.numel
  reduces_S3200x256_S3200 : S3200x256.Reduces [1] S3200
  shapeCasts_S3200_S3200x1 : S3200.ShapeCasts S3200x1
  inb_S1_S1_0 : ∀ a, (![0] : Fin 1 → Nat) a + S1.size a ≤ S1.size a
  h_S1 : 0 < S1.numel
  shapeCasts_S1_S1x1 : S1.ShapeCasts S1x1
  broadcasts_S1x1_S3200x1 : S1x1.Broadcasts S3200x1
  inb_S3200x1_S3200x1_0_0 : ∀ a, (![0, 0] : Fin 2 → Nat) a + S3200x1.size a ≤ S3200x1.size a
  h_S3200x1 : 0 < S3200x1.numel
  bcast_S_S10000x1 : S_.BroadcastsInDim S10000x1 (![] : Fin 0 → Fin S10000x1.rank)
  shapeCasts_S3200x1_S3200x1 : S3200x1.ShapeCasts S3200x1
  broadcasts_S3200x1_S3200x256 : S3200x1.Broadcasts S3200x256
  bcast_S_S10000x256 : S_.BroadcastsInDim S10000x256 (![] : Fin 0 → Fin S10000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  gather_S10000x256_S320000x1_S320000x256_1_0_n_n_0_1_1256_wf : GatherDims.WF S10000x256 S320000x1 S320000x256 [1] [0] [] [0] [] 1 ![1, 256]
  dot_S3200x256_S256x256_S3200x256_1_0_0_1_n_n_wf : DotDims.WF S3200x256 S256x256 S3200x256 [1] [0] [0] [1] [] []
  scatter_S10000x1_S320000x1_S320000x1_1_0_0_1_wf : ScatterDims.WF S10000x1 S320000x1 S320000x1 [1] [0] [0] 1
  gather_S10000x1_S320000x1_S320000x1_1_0_n_n_0_1_11_wf : GatherDims.WF S10000x1 S320000x1 S320000x1 [1] [0] [] [0] [] 1 ![1, 1]
  scatter_S10000x256_S320000x1_S320000x256_1_0_0_1_wf : ScatterDims.WF S10000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x256.size a ≤ S320000x256.size a
  hwx0_0 : ∀ i : grid0.Coords, EltTy.bits .f32 = 32 ∨ (Rect.block (s := S320000x256) S3200x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x256.size a ≤ S320000x256.size a
  hwx0_1 : ∀ i : grid0.Coords, EltTy.bits .f32 = 32 ∨ (Rect.block (s := S320000x256) S3200x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3200x1.size a ≤ S320000x1.size a
  hwx0_9 : ∀ i : grid0.Coords, EltTy.bits .f32 = 32 ∨ (Rect.block (s := S320000x1) S3200x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x256.size a ≤ S320000x256.size a
  hwx0_10 : ∀ i : grid0.Coords, EltTy.bits .f32 = 32 ∨ (Rect.block (s := S320000x256) S3200x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x1.size a ≤ S320000x1.size a
  hwx1_0 : ∀ i : grid1.Coords, EltTy.bits .f32 = 32 ∨ (Rect.block (s := S320000x1) S3200x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x1.size a ≤ S320000x1.size a
  hwx1_1 : ∀ i : grid1.Coords, EltTy.bits .f32 = 32 ∨ (Rect.block (s := S320000x1) S3200x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x256.size a ≤ S320000x256.size a
  hwx1_2 : ∀ i : grid1.Coords, EltTy.bits .f32 = 32 ∨ (Rect.block (s := S320000x256) S3200x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x256.size a ≤ S320000x256.size a
  hwx1_3 : ∀ i : grid1.Coords, EltTy.bits .f32 = 32 ∨ (Rect.block (s := S320000x256) S3200x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S10000x256.size a
  hwx2_0 : ∀ i : grid2.Coords, EltTy.bits .f32 = 32 ∨ (Rect.block (s := S10000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S10000x256.size a
  hwx2_1 : ∀ i : grid2.Coords, EltTy.bits .f32 = 32 ∨ (Rect.block (s := S10000x256) S1000x256.size (cc2_transform_1 i) (hinb2_1 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def gather_S10000x1_S320000x1_S320000x1_1_0_n_n_0_1_11 : GatherDims S10000x1 S320000x1 S320000x1 where
  offsetDims := [1]
  collapsedSliceDims := [0]
  operandBatchingDims := []
  startIndicesBatchingDims := []
  startIndexMap := [0]
  indexVectorDim := 1
  sliceSizes := ![1, 1]
  wf := gather_S10000x1_S320000x1_S320000x1_1_0_n_n_0_1_11_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

abbrev win0_0 : Pipeline.Window sig grid0 :=
  Pipeline.Window.ofSpec (Memref.whole main_v6) S3200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16_0) S3200x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v16_1) S3200x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v16_0) S3200x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S3200x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16_1) S3200x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S3200x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1000x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S10000x256 : Shape := ⟨2, ![10000, 256]⟩
abbrev S320000 : Shape := ⟨1, ![320000]⟩
abbrev S256x512 : Shape := ⟨2, ![256, 512]⟩
abbrev S256 : Shape := ⟨1, ![256]⟩
abbrev S1x256 : Shape := ⟨2, ![1, 256]⟩
abbrev S1 : Shape := ⟨1, ![1]⟩
abbrev S256x256 : Shape := ⟨2, ![256, 256]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S512x256 : Shape := ⟨2, ![512, 256]⟩
abbrev S256x1 : Shape := ⟨2, ![256, 1]⟩
abbrev S1x1 : Shape := ⟨2, ![1, 1]⟩
abbrev S10000x1 : Shape := ⟨2, ![10000, 1]⟩

abbrev nBuf : Space → Nat
  | .hbm => 81
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000, .i32⟩
  | .hbm, ⟨2, _⟩ => ⟨S320000, .i32⟩
  | .hbm, ⟨3, _⟩ => ⟨S256x512, .f32⟩
  | .hbm, ⟨4, _⟩ => ⟨S256, .f32⟩
  | .hbm, ⟨5, _⟩ => ⟨S1x256, .f32⟩
  | .hbm, ⟨6, _⟩ => ⟨S1, .f32⟩
  | .hbm, ⟨7, _⟩ => ⟨S256x256, .f32⟩
  | .hbm, ⟨8, _⟩ => ⟨S256, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x256, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x256, .f32⟩
  | .hbm, ⟨27, _⟩ => ⟨S320000x512, .f32⟩
  | .hbm, ⟨28, _⟩ => ⟨S512x256, .f32⟩
  | .hbm, ⟨29, _⟩ => ⟨S320000x256, .f32⟩
  | .hbm, ⟨30, _⟩ => ⟨S1x256, .f32⟩
  | .hbm, ⟨31, _⟩ => ⟨S320000x256, .f32⟩
  | .hbm, ⟨32, _⟩ => ⟨S320000x256, .f32⟩
  | .hbm, ⟨33, _⟩ => ⟨S_, .f32⟩
  | .hbm, ⟨34, _⟩ => ⟨S320000x256, .f32⟩
  | .hbm, ⟨35, _⟩ => ⟨S320000x256, .i1⟩
  | .hbm, ⟨36, _⟩ => ⟨S_, .f32⟩
  | .hbm, ⟨37, _⟩ => ⟨S320000x256, .f32⟩
  | .hbm, ⟨38, _⟩ => ⟨S320000x256, .f32⟩
  | .hbm, ⟨39, _⟩ => ⟨S320000x256, .f32⟩
  | .hbm, ⟨40, _⟩ => ⟨S256x1, .f32⟩
  | .hbm, ⟨41, _⟩ => ⟨S320000x1, .f32⟩
  | .hbm, ⟨42, _⟩ => ⟨S1x1, .f32⟩
  | .hbm, ⟨43, _⟩ => ⟨S320000x1, .f32⟩
  | .hbm, ⟨44, _⟩ => ⟨S320000x1, .f32⟩
  | .hbm, ⟨45, _⟩ => ⟨S320000x1, .f32⟩
  | .hbm, ⟨46, _⟩ => ⟨S_, .f32⟩
  | .hbm, ⟨47, _⟩ => ⟨S10000x1, .f32⟩
  | .hbm, ⟨48, _⟩ => ⟨S320000x1, .i32⟩
  | .hbm, ⟨49, _⟩ => ⟨S10000x1, .f32⟩
  | .hbm, ⟨50, _⟩ => ⟨S_, .f32⟩
  | .hbm, ⟨51, _⟩ => ⟨S10000x1, .f32⟩
  | .hbm, ⟨52, _⟩ => ⟨S10000x1, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S320000x1, .i32⟩
  | .hbm, ⟨61, _⟩ => ⟨S320000x1, .f32⟩
  | .hbm, ⟨62, _⟩ => ⟨S320000x1, .f32⟩
  | .hbm, ⟨63, _⟩ => ⟨S256x256, .f32⟩
  | .hbm, ⟨64, _⟩ => ⟨S320000x256, .f32⟩
  | .hbm, ⟨65, _⟩ => ⟨S1x256, .f32⟩
  | .hbm, ⟨66, _⟩ => ⟨S320000x256, .f32⟩
  | .hbm, ⟨67, _⟩ => ⟨S320000x256, .f32⟩
  | .hbm, ⟨68, _⟩ => ⟨S320000x256, .f32⟩
  | .hbm, ⟨69, _⟩ => ⟨S320000x256, .f32⟩
  | .hbm, ⟨70, _⟩ => ⟨S_, .f32⟩
  | .hbm, ⟨71, _⟩ => ⟨S10000x256, .f32⟩
  | .hbm, ⟨72, _⟩ => ⟨S320000x1, .i32⟩
  | .hbm, ⟨73, _⟩ => ⟨S10000x256, .f32⟩
  | .hbm, ⟨74, _⟩ => ⟨S_, .f32⟩
  | .hbm, ⟨75, _⟩ => ⟨S10000x256, .f32⟩
  | .hbm, ⟨76, _⟩ => ⟨S10000x256, .i1⟩
  | .hbm, ⟨77, _⟩ => ⟨S_, .f32⟩
  | .hbm, ⟨78, _⟩ => ⟨S10000x256, .f32⟩
  | .hbm, ⟨79, _⟩ => ⟨S10000x256, .f32⟩
  | .hbm, ⟨80, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  transposes_S256x512_S512x256_1_0 : S256x512.Transposes [1, 0] S512x256
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  transposes_S1x256_S256x1_1_0 : S1x256.Transposes [1, 0] S256x1
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  bcast_S_S10000x1 : S_.BroadcastsInDim S10000x1 (![] : Fin 0 → Fin S10000x1.rank)
  transposes_S256x256_S256x256_1_0 : S256x256.Transposes [1, 0] S256x256
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  gather_S10000x256_S320000x1_S320000x256_1_0_n_n_0_1_1256_wf : GatherDims.WF S10000x256 S320000x1 S320000x256 [1] [0] [] [0] [] 1 ![1, 256]
  dot_S320000x512_S512x256_S320000x256_1_0_0_1_n_n_wf : DotDims.WF S320000x512 S512x256 S320000x256 [1] [0] [0] [1] [] []
  dot_S320000x256_S256x1_S320000x1_1_0_0_1_n_n_wf : DotDims.WF S320000x256 S256x1 S320000x1 [1] [0] [0] [1] [] []
  scatter_S10000x1_S320000x1_S320000x1_1_0_0_1_wf : ScatterDims.WF S10000x1 S320000x1 S320000x1 [1] [0] [0] 1
  gather_S10000x1_S320000x1_S320000x1_1_0_n_n_0_1_11_wf : GatherDims.WF S10000x1 S320000x1 S320000x1 [1] [0] [] [0] [] 1 ![1, 1]
  dot_S320000x256_S256x256_S320000x256_1_0_0_1_n_n_wf : DotDims.WF S320000x256 S256x256 S320000x256 [1] [0] [0] [1] [] []
  scatter_S10000x256_S320000x1_S320000x256_1_0_0_1_wf : ScatterDims.WF S10000x256 S320000x1 S320000x256 [1] [0] [0] 1

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def dot_S320000x256_S256x1_S320000x1_1_0_0_1_n_n : DotDims S320000x256 S256x1 S320000x1 where
  lhsContracting := [1]
  rhsContracting := [0]
  lhsNonContracting := [0]
  rhsNonContracting := [1]
  lhsBatch := []
  rhsBatch := []
  wf := dot_S320000x256_S256x1_S320000x1_1_0_0_1_n_n_wf
def scatter_S10000x1_S320000x1_S320000x1_1_0_0_1 : ScatterDims S10000x1 S320000x1 S320000x1 where
  updateWindowDims := [1]
  insertedWindowDims := [0]
  scatterDimsToOperandDims := [0]
  indexVectorDim := 1
  wf := scatter_S10000x1_S320000x1_S320000x1_1_0_0_1_wf
def gather_S10000x1_S320000x1_S320000x1_1_0_n_n_0_1_11 : GatherDims S10000x1 S320000x1 S320000x1 where
  offsetDims := [1]
  collapsedSliceDims := [0]
  operandBatchingDims := []
  startIndicesBatchingDims := []
  startIndexMap := [0]
  indexVectorDim := 1
  sliceSizes := ![1, 1]
  wf := gather_S10000x1_S320000x1_S320000x1_1_0_n_n_0_1_11_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.Spec.lean ====
/-
  The graph-attention layer that both programs compute, written over the extended reals, one array entry at a time.

  320000 edges, 10000 nodes, 256 features.  For edge `e`, with `s` the gathered source rows and `t` the gathered
  target rows (both 320000 × 256):

    pre e j      = (Σ_k s[e,k] · Ws[j,k]) + (Σ_k t[e,k] · Wt[j,k]) + b[j]
    expE e       = exp ((Σ_j lrelu (pre e j) · a[0,j]) + a₀[0])
    w2h e j      = (Σ_k t[e,k] · Wo[j,k]) + bo[j]
    weighted e j = (E[e,0] / D[e,0]) · H[e,j]
    leaky n j    = lrelu (Z[n,j])

  where `lrelu x = x` when `x ≥ 0` and `c · x` otherwise, `c` the binary32 value nearest 0.01 (the same word in
  both programs, so it is never evaluated).  `Ws`, `Wt` are the left and right 256-column halves of the 256 × 512
  input weight; `expE'` is `expE` written over the whole weight, and `expE_halves` says the two agree.
-/
import Idealize.ShloMosaic.PureOps.Ideal
import Idealize.ShloMosaic.PureOps.Vector
import Idealize.ShloMosaic.Lib.ValueIdx
import Idealize.ShloMosaic.Lib.ValueLayout

noncomputable section

namespace Cert.Spec

open Idealize.ShloMosaic Idealize.ShloMosaic.ValueIdx

abbrev SEx256 : Shape := ⟨2, ![320000, 256]⟩
abbrev SEx1 : Shape := ⟨2, ![320000, 1]⟩
abbrev SNx256 : Shape := ⟨2, ![10000, 256]⟩
abbrev S256x256 : Shape := ⟨2, ![256, 256]⟩
abbrev S256x512 : Shape := ⟨2, ![256, 512]⟩
abbrev S1x256 : Shape := ⟨2, ![1, 256]⟩
abbrev S256 : Shape := ⟨1, ![256]⟩
abbrev S1 : Shape := ⟨1, ![1]⟩

/-- The leaky rectifier on one extended real: `x` itself when `x ≥ 0`, else `x` scaled by the binary32 word
    `0x3C23D70A` (the float nearest 0.01). -/
def lrelu (x : EReal) : EReal :=
  Scalar.select (Ideal.cmp .oge x (Ideal.ofBits .f32 0x00000000#32)) x (Ideal.ofBits .f32 0x3C23D70A#32 * x)

/-- The pre-activation of edge `e`, output feature `j`, from the two gathered rows and the two weight halves. -/
def pre (s t : FVec Ideal SEx256 .f32) (ws wt : FVec Ideal S256x256 .f32) (b : FVec Ideal S256 .f32)
    (e : Fin 320000) (j : Fin 256) : EReal :=
  (∑ k : Fin 256, s (ix2 e k) * ws (ix2 j k)) + (∑ k : Fin 256, t (ix2 e k) * wt (ix2 j k)) + b (ix1 j)

/-- The exponential of each edge's attention logit. -/
def expE (s t : FVec Ideal SEx256 .f32) (ws wt : FVec Ideal S256x256 .f32) (b : FVec Ideal S256 .f32)
    (a : FVec Ideal S1x256 .f32) (a0 : FVec Ideal S1 .f32) : FVec Ideal SEx1 .f32 :=
  fun i => Ideal.exp ((∑ j : Fin 256, lrelu (pre s t ws wt b (i 0) j) * a (ix2 (0 : Fin 1) j)) + a0 (ix1 (0 : Fin 1)))

/-- The same with the weight given whole (256 × 512): column `k` for the source half, column `256 + k` for the target half. -/
def pre' (s t : FVec Ideal SEx256 .f32) (w : FVec Ideal S256x512 .f32) (b : FVec Ideal S256 .f32)
    (e : Fin 320000) (j : Fin 256) : EReal :=
  (∑ k : Fin 256, s (ix2 e k) * w (ix2 j ⟨k.val, by omega⟩))
    + (∑ k : Fin 256, t (ix2 e k) * w (ix2 j ⟨256 + k.val, by omega⟩)) + b (ix1 j)

def expE' (s t : FVec Ideal SEx256 .f32) (w : FVec Ideal S256x512 .f32) (b : FVec Ideal S256 .f32)
    (a : FVec Ideal S1x256 .f32) (a0 : FVec Ideal S1 .f32) : FVec Ideal SEx1 .f32 :=
  fun i => Ideal.exp ((∑ j : Fin 256, lrelu (pre' s t w b (i 0) j) * a (ix2 (0 : Fin 1) j)) + a0 (ix1 (0 : Fin 1)))

/-- The target rows through the output weight, plus its bias. -/
def w2h (t : FVec Ideal SEx256 .f32) (wo : FVec Ideal S256x256 .f32) (bo : FVec Ideal S256 .f32) : FVec Ideal SEx256 .f32 :=
  fun i => (∑ k : Fin 256, t (ix2 (i 0) k) * wo (ix2 (i 1) k)) + bo (ix1 (i 1))

/-- Each edge's row of `H` scaled by that edge's softmax weight `E / D`. -/
def weighted (E D : FVec Ideal SEx1 .f32) (H : FVec Ideal SEx256 .f32) : FVec Ideal SEx256 .f32 :=
  fun i => Ideal.div (E (ix2 (i 0) (0 : Fin 1))) (D (ix2 (i 0) (0 : Fin 1))) * H i

/-- The leaky rectifier, entry by entry. -/
def leaky (Z : FVec Ideal SNx256 .f32) : FVec Ideal SNx256 .f32 := fun i => lrelu (Z i)

/-- The whole layer from its pieces.  `back` takes the per-edge exponentials to each edge's denominator (their sum over
    the edges sharing the edge's target node, plus a small constant, read back at the edge), and `agg` adds the weighted
    edge rows into their target nodes; both are the host's gather and scatter-add and stay unopened here. -/
def layer (back : FVec Ideal SEx1 .f32 → FVec Ideal SEx1 .f32) (agg : FVec Ideal SEx256 .f32 → FVec Ideal SNx256 .f32)
    (s t : FVec Ideal SEx256 .f32) (w : FVec Ideal S256x512 .f32) (b : FVec Ideal S256 .f32)
    (a : FVec Ideal S1x256 .f32) (a0 : FVec Ideal S1 .f32) (wo : FVec Ideal S256x256 .f32) (bo : FVec Ideal S256 .f32) :
    FVec Ideal SNx256 .f32 :=
  leaky (agg (weighted (expE' s t w b a a0) (back (expE' s t w b a a0)) (w2h t wo bo)))

/-- Cutting the 256 × 512 weight into its two column halves and using each half is the same as reading the whole
    weight at columns `k` and `256 + k`. -/
theorem expE_halves (s t : FVec Ideal SEx256 .f32) (w : FVec Ideal S256x512 .f32) (b : FVec Ideal S256 .f32)
    (a : FVec Ideal S1x256 .f32) (a0 : FVec Ideal S1 .f32)
    (h0 : S256x512.Slices ![0, 0] S256x256) (h1 : S256x512.Slices ![0, 256] S256x256) :
    expE s t (extractStridedSlice S256x256 ![0, 0] w h0) (extractStridedSlice S256x256 ![0, 256] w h1) b a a0
      = expE' s t w b a a0 := by
  funext i
  unfold expE expE' pre pre'
  have e0 : ∀ (j k : Fin 256), extractStridedSlice S256x256 ![0, 0] w h0 (ix2 j k) = w (ix2 j ⟨k.val, by omega⟩) :=
    fun j k => slice2_axis1_apply 0 w h0 j k ⟨k.val, by omega⟩ (by simp)
  have e1 : ∀ (j k : Fin 256), extractStridedSlice S256x256 ![0, 256] w h1 (ix2 j k) = w (ix2 j ⟨256 + k.val, by omega⟩) :=
    fun j k => slice2_axis1_apply 256 w h1 j k ⟨256 + k.val, by omega⟩ rfl
  simp only [e0, e1]

end Cert.Spec

end
-- ==== Proof.KernelValue.lean ====
/-
  The idealized kernel's result array, traced from the last region back to the launch memory.

  The program is three kernel regions with stretches of host operations before and between them.  The buffer contents at
  each boundary are a fold from the launch memory: a host stretch applies its operations, a region replaces its output
  arrays by what its write-backs leave.  Reading the result buffer through that fold: region 2's output is the rectifier of
  the aggregated rows; those are the second host stretch's scatter-add of region 1's output; region 1's output weights
  region 0's projected rows by the quotient of region 0's exponentials and their gathered-back segment sums (the first
  stretch between regions); region 0 reads the two gathered row arrays, the two halves of the input weight, and the
  remaining arguments as launched.  The host stretches enter only as functions of what they read (`back`, `agg`, the two
  gathered row arrays): which functions they are is settled where both programs are in view.
-/
import proofs.«126923_j40827959116587_1_alg».proof.Proof.Gen.KernelIdeal.Frame
import proofs.«126923_j40827959116587_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The first stretch of host operations: what region 0 finds -/

theorem V1_v14 (c : Dev nD) : V1 m ρ c main_v14
    = extractStridedSlice S256x256 ![0, 0] (m ((c : Thread nD τ).loc main_arg3)) slices_S256x512_S256x256_0_0 := by
  show StableHlo.after hostOps0 (W0 m ρ c) (Proc.devRef .tc main_v14) = _
  after_results

theorem V1_v15 (c : Dev nD) : V1 m ρ c main_v15
    = extractStridedSlice S256x256 ![0, 256] (m ((c : Thread nD τ).loc main_arg3)) slices_S256x512_S256x256_0_256 := by
  show StableHlo.after hostOps0 (W0 m ρ c) (Proc.devRef .tc main_v15) = _
  after_results

theorem V1_arg (c : Dev nD) (b : Ref sig .tc) (hb : b = main_arg4 ∨ b = main_arg5 ∨ b = main_arg6 ∨ b = main_arg7 ∨ b = main_arg8) :
    V1 m ρ c b = m ((c : Thread nD τ).loc b) := by
  rcases hb with rfl | rfl | rfl | rfl | rfl <;>
  · show StableHlo.after hostOps0 (W0 m ρ c) (Proc.devRef .tc _) = _
    after_results

/-! ## Buffers a stretch of host operations does not write keep their contents -/

theorem V3_v16_0 (c : Dev nD) : V3 m ρ c main_v16_0 = W2 m ρ c (Proc.devRef .tc main_v16_0) := by
  show StableHlo.after hostOps1 (W2 m ρ c) (Proc.devRef .tc main_v16_0) = _
  after_results

theorem V3_v16_1 (c : Dev nD) : V3 m ρ c main_v16_1 = W2 m ρ c (Proc.devRef .tc main_v16_1) := by
  show StableHlo.after hostOps1 (W2 m ρ c) (Proc.devRef .tc main_v16_1) = _
  after_results

/-- The target-index argument is untouched up to region 0's exit … -/
theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

/-- … and up to region 1's exit. -/
theorem W4_arg2 (c : Dev nD) : W4 m ρ c (Proc.devRef .tc main_arg2) = m ((c : Thread nD τ).loc main_arg2) := by
  refine (W4_of_ne m ρ c main_arg2 (by decide)).trans ?_
  show StableHlo.after hostOps1 (W2 m ρ c) (Proc.devRef .tc main_arg2) = _
  after_results
  exact W2_arg2 m ρ c

/-! ## The chain: the result array from the last region back to the launch memory -/

/-- With each region's output array given as the specification's function of what the region finds, and the two
    stretches of host operations between the regions given as functions `back` and `agg` of what they read, the
    result array is the specification's layer of the launch memory. -/
theorem kernel_value_of
    (hR0a : ∀ (V : (c : Dev nD) → (b : Ref sig .tc) → Buf (Elt Ideal) ((c : Thread nD τ).loc b)) (c : Dev nD),
      (dat0 (F := Ideal) V c).arrAt 9 cfg0.N
        = Cert.Spec.expE (V c main_v6) (V c main_v13) (V c main_v14) (V c main_v15) (V c main_arg4) (V c main_arg5) (V c main_arg6))
    (hR0b : ∀ (V : (c : Dev nD) → (b : Ref sig .tc) → Buf (Elt Ideal) ((c : Thread nD τ).loc b)) (c : Dev nD),
      (dat0 (F := Ideal) V c).arrAt 10 cfg0.N = Cert.Spec.w2h (V c main_v13) (V c main_arg7) (V c main_arg8))
    (hR1 : ∀ (V : (c : Dev nD) → (b : Ref sig .tc) → Buf (Elt Ideal) ((c : Thread nD τ).loc b)) (c : Dev nD),
      (dat1 (F := Ideal) V c).arrAt 3 cfg1.N = Cert.Spec.weighted (V c main_v16_0) (V c main_v28) (V c main_v16_1))
    (hR2 : ∀ (V : (c : Dev nD) → (b : Ref sig .tc) → Buf (Elt Ideal) ((c : Thread nD τ).loc b)) (c : Dev nD),
      (dat2 (F := Ideal) V c).arrAt 1 cfg2.N = Cert.Spec.leaky (V c main_v32))
    (c : Dev nD) (S T : FVec Ideal Cert.Spec.SEx256 .f32)
    (back : FVec Ideal Cert.Spec.SEx1 .f32 → FVec Ideal Cert.Spec.SEx1 .f32)
    (agg : FVec Ideal Cert.Spec.SEx256 .f32 → FVec Ideal Cert.Spec.SNx256 .f32)
    (h6 : V1 m ρ c main_v6 = S) (h13 : V1 m ρ c main_v13 = T)
    (h28 : V3 m ρ c main_v28 = back (W2 m ρ c (Proc.devRef .tc main_v16_0)))
    (h32 : V5 m ρ c main_v32 = agg (W4 m ρ c (Proc.devRef .tc main_v29))) :
    W6 m ρ c (Proc.devRef .tc main_v33)
      = Cert.Spec.layer back agg S T (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  -- region 0's two outputs, over the launch memory
  have hE : W2 m ρ c (Proc.devRef .tc main_v16_0)
      = Cert.Spec.expE' S T (m ((c : Thread nD τ).loc main_arg3)) (m ((c : Thread nD τ).loc main_arg4))
          (m ((c : Thread nD τ).loc main_arg5)) (m ((c : Thread nD τ).loc main_arg6)) := by
    refine (W2_arr m ρ c 9).trans ((hR0a (V1 m ρ) c).trans ?_)
    rw [h6, h13, V1_v14, V1_v15, V1_arg m ρ c main_arg4 (Or.inl rfl), V1_arg m ρ c main_arg5 (Or.inr (Or.inl rfl)),
      V1_arg m ρ c main_arg6 (Or.inr (Or.inr (Or.inl rfl)))]
    exact Cert.Spec.expE_halves _ _ _ _ _ _ _ _
  have hH : W2 m ρ c (Proc.devRef .tc main_v16_1)
      = Cert.Spec.w2h T (m ((c : Thread nD τ).loc main_arg7)) (m ((c : Thread nD τ).loc main_arg8)) := by
    refine (W2_arr m ρ c 10).trans ((hR0b (V1 m ρ) c).trans ?_)
    rw [h13, V1_arg m ρ c main_arg7 (Or.inr (Or.inr (Or.inr (Or.inl rfl)))), V1_arg m ρ c main_arg8 (Or.inr (Or.inr (Or.inr (Or.inr rfl))))]
  -- region 1's output
  have hW : W4 m ρ c (Proc.devRef .tc main_v29)
      = Cert.Spec.weighted (W2 m ρ c (Proc.devRef .tc main_v16_0)) (back (W2 m ρ c (Proc.devRef .tc main_v16_0)))
          (W2 m ρ c (Proc.devRef .tc main_v16_1)) := by
    refine (W4_arr m ρ c 3).trans ((hR1 (V3 m ρ) c).trans ?_)
    rw [h28, V3_v16_0, V3_v16_1]
  -- region 2's output
  refine (W6_arr m ρ c 1).trans ((hR2 (V5 m ρ) c).trans ?_)
  rw [h32, hW, hE, hH]
  rfl

end Cert.KernelIdeal.KValue

end
-- ==== Proof.Region0.lean ====
/-
  Region 0 (the first kernel launch, 100 grid points over blocks of 3200 edges): what its two output arrays hold when
  the region is left, as functions of the arrays it finds on entry — the exponentials of the attention logits and the
  target rows through the output weight.

  Point `t` reads rows 3200·t … 3200·t + 3199 of the gathered source rows and of the gathered target rows (all 256
  columns), and the whole of each weight, bias and attention vector; it writes the same rows of the two outputs.

  The body, entry by entry over the extended reals (where narrowing to the short float format is the identity, a product
  accumulated into zero is a plain sum, and a sum along an axis is a plain sum):
    first output  (p, 0):  exp ((Σ_j lrelu ((Σ_k s[p,k] · Ws[j,k]) + (Σ_k t[p,k] · Wt[j,k]) + b[j]) · a[0,j]) + a₀[0])
    second output (p, j):  (Σ_k t[p,k] · Wo[j,k]) + bo[j]
  Each weight enters transposed, so entry `(k, j)` of the right factor is entry `(j, k)` of the weight; the bias is cast to
  one row and repeated down the block; the row sums are cast to a column and the scalar offset repeated down it.

  Row `p` of block `t` is row 3200·t + p of the array, and the 100 blocks tile the 320000 rows, so each whole output
  array is the specification's function of the whole input arrays.
-/
import proofs.«126923_j40827959116587_1_alg».proof.Proof.Gen.KernelIdeal.Frame
import proofs.«126923_j40827959116587_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The product of a block with a weight, read at coordinates -/

/-- The left operand's row coordinate is the output's row. -/
theorem lhs_dot_0 (i : S3200x256.Idx) (q : dot_S3200x256_S256x256_S3200x256_1_0_0_1_n_n.contr.Idx) :
    (dot_S3200x256_S256x256_S3200x256_1_0_0_1_n_n.lhsIdx i q 0).val = (i 0).val := by
  unfold DotDims.lhsIdx
  rw [dif_neg (show ¬(0 : Fin S3200x256.rank) ∈ dot_S3200x256_S256x256_S3200x256_1_0_0_1_n_n.lhsBatch by decide), dif_pos (show (0 : Fin S3200x256.rank) ∈ dot_S3200x256_S256x256_S3200x256_1_0_0_1_n_n.lhsNonContracting by decide)]
  rfl
/-- The left operand's column coordinate is the summation index. -/
theorem lhs_dot_1 (i : S3200x256.Idx) (q : dot_S3200x256_S256x256_S3200x256_1_0_0_1_n_n.contr.Idx) :
    (dot_S3200x256_S256x256_S3200x256_1_0_0_1_n_n.lhsIdx i q 1).val = (q ⟨0, by decide⟩).val :=
  dot_S3200x256_S256x256_S3200x256_1_0_0_1_n_n.lhsIdx_val_of_single rfl i q
/-- The right operand's row coordinate is the summation index. -/
theorem rhs_dot_0 (i : S3200x256.Idx) (q : dot_S3200x256_S256x256_S3200x256_1_0_0_1_n_n.contr.Idx) :
    (dot_S3200x256_S256x256_S3200x256_1_0_0_1_n_n.rhsIdx i q 0).val = (q ⟨0, by decide⟩).val :=
  dot_S3200x256_S256x256_S3200x256_1_0_0_1_n_n.rhsIdx_val_of_single rfl i q
/-- The right operand's column coordinate is the output's column. -/
theorem rhs_dot_1 (i : S3200x256.Idx) (q : dot_S3200x256_S256x256_S3200x256_1_0_0_1_n_n.contr.Idx) :
    (dot_S3200x256_S256x256_S3200x256_1_0_0_1_n_n.rhsIdx i q 1).val = (i 1).val := by
  unfold DotDims.rhsIdx
  rw [dif_neg (show ¬(1 : Fin S256x256.rank) ∈ dot_S3200x256_S256x256_S3200x256_1_0_0_1_n_n.rhsBatch by decide), dif_pos (show (1 : Fin S256x256.rank) ∈ dot_S3200x256_S256x256_S3200x256_1_0_0_1_n_n.rhsNonContracting by decide)]
  rfl

/-- A 3200 × 256 block times a 256 × 256 matrix, accumulated into zero, at row `p` and column `j`: the sum over `k` of
    the block's `(p, k)` entry times the matrix's `(k, j)` entry. -/
theorem matmul_zero_apply {φ₁ φ₂ : FTy} (x : FVec Ideal S3200x256 φ₁) (w : FVec Ideal S256x256 φ₂) (p : Fin 3200) (j : Fin 256) :
    matmul (F := Ideal) dot_S3200x256_S256x256_S3200x256_1_0_0_1_n_n none x w (constant (F := Ideal) S3200x256 .f32 0x00000000#32) (ix2 p j)
      = ∑ k : Fin 256, x (ix2 p k) * w (ix2 k j) := by
  simp only [matmul]
  rw [Ideal.matmul_constant_zero_apply, ← Equiv.sum_comp (ValueIdx.contrEquiv1 dot_S3200x256_S256x256_S3200x256_1_0_0_1_n_n 256 rfl rfl).symm]
  refine Finset.sum_congr rfl fun k _ => ?_
  have hk := ValueIdx.contrEquiv1_symm_val dot_S3200x256_S256x256_S3200x256_1_0_0_1_n_n 256 rfl rfl k
  have el : dot_S3200x256_S256x256_S3200x256_1_0_0_1_n_n.lhsIdx (ix2 p j) ((ValueIdx.contrEquiv1 dot_S3200x256_S256x256_S3200x256_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S3200x256_S256x256_S3200x256_1_0_0_1_n_n.rhsIdx (ix2 p j) ((ValueIdx.contrEquiv1 dot_S3200x256_S256x256_S3200x256_1_0_0_1_n_n 256 rfl rfl).symm k) = ix2 k j := funext fun a => Fin.ext (by
    match a with
    | ⟨0, _⟩ => exact (rhs_dot_0 _ _).trans hk
    | ⟨1, _⟩ => exact rhs_dot_1 _ _)
  rw [el, er]

/-! ## Shape casts, broadcasts and the row sum, read at coordinates -/

/-- A 3200-vector cast to a 3200 × 1 column reads, at `(p, q)`, the vector at `p`. -/
theorem cast_col_apply {α : Type} (v : S3200.Idx → α) (h : S3200.ShapeCasts S3200x1) (p : Fin 3200) (q : Fin 1) :
    shapeCast S3200x1 v h (ix2 p q) = v (ix1 p) :=
  shapeCast_apply v h _ _ (by
    have hq : q.val = 0 := by omega
    rw [Shape.rowMajor_val_two, Shape.rowMajor_val_one]
    show p.val = p.val * 1 + q.val
    rw [hq, Nat.mul_one, Nat.add_zero])

/-- A 1-vector cast to 1 × 1 reads its one entry. -/
theorem cast_one_apply {α : Type} (v : S1.Idx → α) (h : S1.ShapeCasts S1x1) (u q : Fin 1) :
    shapeCast S1x1 v h (ix2 u q) = v (ix1 (0 : Fin 1)) := by
  have hq : q = 0 := Subsingleton.elim _ _
  subst hq
  exact shapeCast_a_1a_apply v h u 0

/-- Summing a 3200 × 256 block along its rows: entry `p` of the result is the sum of row `p`. -/
theorem rowsum_apply (v : FVec Ideal S3200x256 .f32) (h : S3200x256.Reduces [1] S3200) (hφ : FKind.Formats .f32)
    (hacc : (0x00000000#32 : BitVec FTy.f32.bits) = FKind.add.neutral .f32 hφ) (p : Fin 3200) :
    multiReduction (F := Ideal) .add [1] S3200 v 0x00000000#32 h hφ hacc (ix1 p) = ∑ k : Fin 256, v (ix2 p k) := by
  refine (Ideal.multiReduction_add_single v _ h hφ hacc (ix1 p)).trans ?_
  refine Finset.sum_congr rfl fun k _ => congrArg v ?_
  funext c
  apply Fin.ext
  match c with
  | ⟨0, _⟩ => rfl
  | ⟨1, _⟩ => rfl

/-! ## The two payloads, read at coordinates -/

/-- A block times the transpose of a weight, into zero, at `(p, j)`: the sum over `k` of the block's `(p, k)` times
    the weight's `(j, k)`. The narrowing of both operands is the identity on the extended reals. -/
theorem matmul_tr_apply (x : Vec Ideal S3200x256 .f32) (w : Vec Ideal S256x256 .f32) (p : Fin 3200) (j : Fin 256) :
    matmul (F := Ideal) dot_S3200x256_S256x256_S3200x256_1_0_0_1_n_n none
        (truncf (F := Ideal) .bf16 x bitsLt_bf16_f32)
        (transpose S256x256 [1, 0] (truncf (F := Ideal) .bf16 w bitsLt_bf16_f32) transposes_S256x256_p1_0_S256x256)
        (constant (F := Ideal) S3200x256 .f32 0x00000000#32) (ix2 p j)
      = ∑ k : Fin 256, x (ix2 p k) * w (ix2 j k) := by
  refine (matmul_zero_apply _ _ p j).trans ?_
  refine Finset.sum_congr rfl fun k _ => ?_
  rw [transpose_ix2_apply]
  rfl

/-- A 256-vector cast to one row and repeated down 3200 rows reads, at `(p, j)`, the vector at `j`. -/
theorem bias_apply (b : Vec Ideal S256 .f32) (p : Fin 3200) (j : Fin 256) :
    broadcastTo S3200x256 (shapeCast S1x256 b shapeCasts_S256_S1x256) broadcasts_S1x256_S3200x256 (ix2 p j) = b (ix1 j) := by
  rw [broadcastTo_1b_ab_apply, shapeCast_a_1a_apply]

/-- The second output's payload at `(p, j)`: the target block's row `p` against the output weight's row `j`, plus
    the bias at `j`. -/
theorem w2h_block_apply (x1 : Vec Ideal S3200x256 .f32) (wo : Vec Ideal S256x256 .f32) (bo : Vec Ideal S256 .f32)
    (p : Fin 3200) (j : Fin 256) :
    k0_pay1 (F := Ideal) (k0_pay2 (F := Ideal) x1) wo bo (ix2 p j) = (∑ k : Fin 256, x1 (ix2 p k) * wo (ix2 j k)) + bo (ix1 j) := by
  unfold k0_pay1 k0_pay2
  rw [shapeCast_self]
  show matmul (F := Ideal) dot_S3200x256_S256x256_S3200x256_1_0_0_1_n_n none _ _ _ (ix2 p j)
      + broadcastTo S3200x256 (shapeCast S1x256 bo shapeCasts_S256_S1x256) broadcasts_S1x256_S3200x256 (ix2 p j) = _
  rw [matmul_tr_apply, bias_apply]

/-- The leaky rectifier of a block, entry by entry: the comparison with the zero splat chooses the entry itself or the
    entry scaled by the small-slope splat. -/
theorem lrelu_block_apply (X : FVec Ideal S3200x256 .f32) (i : S3200x256.Idx) :
    select (cmpf .oge X (broadcast S3200x256 (Scalar.ofBits (F := Ideal) .f32 0x00000000#32))) X
        (mulf (broadcast S3200x256 (Scalar.ofBits (F := Ideal) .f32 0x3C23D70A#32)) X) i
      = Cert.Spec.lrelu (X i) := rfl

/-- The pre-activation block at `(p, j)`: source row `p` against the source half's row `j`, plus target row `p`
    against the target half's row `j`, plus the bias at `j`. -/
theorem preact_apply (x0 x1 : Vec Ideal S3200x256 .f32) (w0 w1 : Vec Ideal S256x256 .f32) (b : Vec Ideal S256 .f32)
    (p : Fin 3200) (j : Fin 256) :
    addf (addf
        (matmul (F := Ideal) dot_S3200x256_S256x256_S3200x256_1_0_0_1_n_n none
          (truncf (F := Ideal) .bf16 x0 bitsLt_bf16_f32)
          (transpose S256x256 [1, 0] (truncf (F := Ideal) .bf16 w0 bitsLt_bf16_f32) transposes_S256x256_p1_0_S256x256)
          (constant (F := Ideal) S3200x256 .f32 0x00000000#32))
        (matmul (F := Ideal) dot_S3200x256_S256x256_S3200x256_1_0_0_1_n_n none
          (truncf (F := Ideal) .bf16 x1 bitsLt_bf16_f32)
          (transpose S256x256 [1, 0] (truncf (F := Ideal) .bf16 w1 bitsLt_bf16_f32) transposes_S256x256_p1_0_S256x256)
          (constant (F := Ideal) S3200x256 .f32 0x00000000#32)))
        (broadcastTo S3200x256 (shapeCast S1x256 b shapeCasts_S256_S1x256) broadcasts_S1x256_S3200x256) (ix2 p j)
      = (∑ k : Fin 256, x0 (ix2 p k) * w0 (ix2 j k)) + (∑ k : Fin 256, x1 (ix2 p k) * w1 (ix2 j k)) + b (ix1 j) := by
  show matmul (F := Ideal) dot_S3200x256_S256x256_S3200x256_1_0_0_1_n_n none _ _ _ (ix2 p j)
      + matmul (F := Ideal) dot_S3200x256_S256x256_S3200x256_1_0_0_1_n_n none _ _ _ (ix2 p j)
      + broadcastTo S3200x256 (shapeCast S1x256 b shapeCasts_S256_S1x256) broadcasts_S1x256_S3200x256 (ix2 p j) = _
  rw [matmul_tr_apply, matmul_tr_apply, bias_apply]

/-- The first output's payload at `(p, q)`: the exponential of the attention logit of the block's row `p`. -/
theorem logit_exp_apply (x0 x1 : Vec Ideal S3200x256 .f32) (w0 w1 : Vec Ideal S256x256 .f32) (b : Vec Ideal S256 .f32)
    (a : Vec Ideal S1x256 .f32) (a0 : Vec Ideal S1 .f32) (p : Fin 3200) (q : Fin 1) :
    k0_pay3 (F := Ideal) x0 x1 w0 w1 b a a0 (ix2 p q)
      = Ideal.exp ((∑ j : Fin 256, Cert.Spec.lrelu ((∑ k : Fin 256, x0 (ix2 p k) * w0 (ix2 j k))
            + (∑ k : Fin 256, x1 (ix2 p k) * w1 (ix2 j k)) + b (ix1 j)) * a (ix2 (0 : Fin 1) j))
          + a0 (ix1 (0 : Fin 1))) := by
  unfold k0_pay3 k0_pay2
  simp only [shapeCast_self]
  show Ideal.exp (shapeCast S3200x1 _ shapeCasts_S3200_S3200x1 (ix2 p q)
      + broadcastTo S3200x1 (shapeCast S1x1 a0 shapeCasts_S1_S1x1) broadcasts_S1x1_S3200x1 (ix2 p q)) = _
  rw [cast_col_apply, broadcastTo_1b_ab_apply, cast_one_apply]
  refine congrArg (fun s => Ideal.exp (s + a0 (ix1 (0 : Fin 1)))) ?_
  refine (rowsum_apply _ _ _ _ p).trans ?_
  refine Finset.sum_congr rfl fun j _ => ?_
  show select _ _ _ (ix2 p j) * broadcastTo S3200x256 a broadcasts_S1x256_S3200x256 (ix2 p j) = _
  rw [lrelu_block_apply, preact_apply, broadcastTo_1b_ab_apply]

variable (V : (c : Dev nD) → (b : Ref sig .tc) → Buf (Elt Ideal) ((c : Thread nD τ).loc b))

/-! ## Where the blocks lie -/

theorem zero2 : (![0, 0] : Fin 2 → Nat) = fun _ => 0 := funext fun a => by fin_cases a <;> rfl
theorem zero1 : (![0] : Fin 1 → Nat) = fun _ => 0 := funext fun a => by fin_cases a <;> rfl

/-- At point `t` the two edge-row inputs and the two outputs are block row `t`, block column 0; every other input is
    its whole array, block 0 on each axis. -/
theorem blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Every block row is some point's. -/
theorem block_row_onto : ∀ q : Fin 100, ∃ t : Fin cfg0.N, win0_9.index t (0 : Fin 2) = q.val ∧ win0_10.index t (0 : Fin 2) = q.val :=
  (by decide +kernel : ∀ q : Fin 100, ∃ t : Fin grid0.N, win0_9.index t (0 : Fin 2) = q.val ∧ win0_10.index t (0 : Fin 2) = q.val)

/-! ## The first output: the exponentials of the attention logits -/

/-- What point `t` writes back to the first output is block `t` of `expE` of the arrays the region finds. -/
theorem flushed_eq9 (c : Dev nD) (t : Fin cfg0.N) :
    (dat0 (F := Ideal) V c).flushed 9 t
      = ((cfg0.win 9).blk t).view.read (Elt Ideal)
          (Cert.Spec.expE (V c main_v6) (V c main_v13) (V c main_v14) (V c main_v15) (V c main_arg4) (V c main_arg5) (V c main_arg6)) := by
  show (cfg0.win 9).cut (grid0.coords t) ((dat0 (F := Ideal) V c).after 9 t) = _
  rw [after0_9]
  unfold out0_9
  rw [View.canon_unit_zero zero2]
  simp only [View.ld_unit_zero (S := S3200x256) zero2, View.ld_unit_zero (S := S256x256) zero2,
    View.ld_unit_zero (S := S256) zero1, View.ld_unit_zero (S := S1x256) zero2, View.ld_unit_zero (S := S1) zero1]
  obtain ⟨e00, e01, e10, e11, e20, e21, e30, e31, e40, e50, e51, e60, -, -, -, e90, e91, -, -⟩ := blocks_at t
  funext j
  obtain ⟨p, q, rfl⟩ : ∃ (p : Fin 3200) (q : Fin 1), j = ix2 p q := ⟨j 0, j 1, eq_ix2 j⟩
  show k0_pay3 (F := Ideal) (iblk0 V c 0 t) (iblk0 V c 1 t) (iblk0 V c 2 t) (iblk0 V c 3 t) (iblk0 V c 4 t)
      (iblk0 V c 5 t) (iblk0 V c 6 t) (ix2 p q)
    = Cert.Spec.expE (V c main_v6) (V c main_v13) (V c main_v14) (V c main_v15) (V c main_arg4) (V c main_arg5) (V c main_arg6)
        (((cfg0.win 9).blk t).view.emb (ix2 p q))
  rw [logit_exp_apply]
  unfold Cert.Spec.expE Cert.Spec.pre
  refine congrArg Ideal.exp (congrArg₂ (· + ·) (Finset.sum_congr rfl fun j _ => congrArg₂ (· * ·)
    (congrArg Cert.Spec.lrelu (congrArg₂ (· + ·) (congrArg₂ (· + ·)
      (Finset.sum_congr rfl fun k _ => congrArg₂ (· * ·) ?_ ?_)
      (Finset.sum_congr rfl fun k _ => congrArg₂ (· * ·) ?_ ?_)) ?_)) ?_) ?_)
  · show V c main_v6 (((cfg0.win 0).blk t).view.emb (ix2 p k)) = _
    refine congrArg _ (funext fun a => Fin.ext ?_)
    match a with
    | ⟨0, _⟩ => show win0_0.index t (0 : Fin 2) * 3200 + 1 * p.val = win0_9.index t (0 : Fin 2) * 3200 + 1 * p.val; omega
    | ⟨1, _⟩ => show win0_0.index t (1 : Fin 2) * 256 + 1 * k.val = k.val; omega
  · show V c main_v14 (((cfg0.win 2).blk t).view.emb (ix2 j k)) = _
    refine congrArg _ (funext fun a => Fin.ext ?_)
    match a with
    | ⟨0, _⟩ => show win0_2.index t (0 : Fin 2) * 256 + 1 * j.val = j.val; omega
    | ⟨1, _⟩ => show win0_2.index t (1 : Fin 2) * 256 + 1 * k.val = k.val; omega
  · show V c main_v13 (((cfg0.win 1).blk t).view.emb (ix2 p k)) = _
    refine congrArg _ (funext fun a => Fin.ext ?_)
    match a with
    | ⟨0, _⟩ => show win0_1.index t (0 : Fin 2) * 3200 + 1 * p.val = win0_9.index t (0 : Fin 2) * 3200 + 1 * p.val; omega
    | ⟨1, _⟩ => show win0_1.index t (1 : Fin 2) * 256 + 1 * k.val = k.val; omega
  · show V c main_v15 (((cfg0.win 3).blk t).view.emb (ix2 j k)) = _
    refine congrArg _ (funext fun a => Fin.ext ?_)
    match a with
    | ⟨0, _⟩ => show win0_3.index t (0 : Fin 2) * 256 + 1 * j.val = j.val; omega
    | ⟨1, _⟩ => show win0_3.index t (1 : Fin 2) * 256 + 1 * k.val = k.val; omega
  · show V c main_arg4 (((cfg0.win 4).blk t).view.emb (ix1 j)) = _
    refine congrArg _ (funext fun a => Fin.ext ?_)
    match a with
    | ⟨0, _⟩ => show win0_4.index t (0 : Fin 1) * 256 + 1 * j.val = j.val; omega
  · show V c main_arg5 (((cfg0.win 5).blk t).view.emb (ix2 (0 : Fin 1) j)) = _
    refine congrArg _ (funext fun a => Fin.ext ?_)
    match a with
    | ⟨0, _⟩ => show win0_5.index t (0 : Fin 2) * 1 + 1 * 0 = 0; omega
    | ⟨1, _⟩ => show win0_5.index t (1 : Fin 2) * 256 + 1 * j.val = j.val; omega
  · show V c main_arg6 (((cfg0.win 6).blk t).view.emb (ix1 (0 : Fin 1))) = _
    refine congrArg _ (funext fun a => Fin.ext ?_)
    match a with
    | ⟨0, _⟩ => show win0_6.index t (0 : Fin 1) * 1 + 1 * 0 = 0; omega

/-- An index of the first output is in point `t`'s block iff each coordinate is in the block's range on its axis. -/
theorem mem_blk9 (t : Fin cfg0.N) (i : S320000x1.Idx) :
    i ∈ ((cfg0.win 9).blk t).view.set ↔ ∀ a : Fin 2, win0_9.index t a * S3200x1.size a ≤ (i a).val ∧ (i a).val < win0_9.index t a * S3200x1.size a + S3200x1.size a := by
  show i ∈ ((View.whole main_v16_0).slice (win0_9.rect t)).set ↔ _
  rw [View.set_slice_whole, Rect.mem_set_unit]
  exact Iff.rfl

/-- Every index of the first output is in some point's block: row `r` in the block of point `r / 3200`. -/
theorem cover9 (i : S320000x1.Idx) : ∃ t : Fin cfg0.N, (cfg0.win 9).flush t = true ∧ i ∈ ((cfg0.win 9).blk t).view.set := by
  have hi0 : (i 0).val < 320000 := (i 0).isLt
  have hi1 : (i 1).val < 1 := (i 1).isLt
  obtain ⟨t, q0, -⟩ := block_row_onto ⟨(i 0).val / 3200, by omega⟩
  obtain ⟨-, -, -, -, -, -, -, -, -, -, -, -, -, -, -, -, q1, -, -⟩ := blocks_at t
  refine ⟨t, flush0_9 t, ?_⟩
  rw [mem_blk9]
  intro a
  match a with
  | ⟨0, _⟩ => show win0_9.index t (0 : Fin 2) * 3200 ≤ (i 0).val ∧ (i 0).val < win0_9.index t (0 : Fin 2) * 3200 + 3200; simp only [] at q0; omega
  | ⟨1, _⟩ => show win0_9.index t (1 : Fin 2) * 1 ≤ (i 1).val ∧ (i 1).val < win0_9.index t (1 : Fin 2) * 1 + 1; omega

/-- The first output array after the region: entry by entry the specification's `expE` of the arrays found on entry. -/
theorem final0_9 (c : Dev nD) :
    (dat0 (F := Ideal) V c).arrAt 9 cfg0.N
      = Cert.Spec.expE (V c main_v6) (V c main_v13) (V c main_v14) (V c main_v15) (V c main_arg4) (V c main_arg5) (V c main_arg6) :=
  (dat0 (F := Ideal) V c).arrAt_eq_of_cover 9
    (Cert.Spec.expE (V c main_v6) (V c main_v13) (V c main_v14) (V c main_v15) (V c main_arg4) (V c main_arg5) (V c main_arg6))
    (fun t _ => flushed_eq9 V c t) (cover9)

/-! ## The second output: the target rows through the output weight -/

/-- What point `t` writes back to the second output is block `t` of `w2h` of the arrays the region finds. -/
theorem flushed_eq10 (c : Dev nD) (t : Fin cfg0.N) :
    (dat0 (F := Ideal) V c).flushed 10 t
      = ((cfg0.win 10).blk t).view.read (Elt Ideal) (Cert.Spec.w2h (V c main_v13) (V c main_arg7) (V c main_arg8)) := by
  show (cfg0.win 10).cut (grid0.coords t) ((dat0 (F := Ideal) V c).after 10 t) = _
  rw [after0_10]
  unfold out0_10
  rw [View.canon_unit_zero zero2]
  simp only [View.ld_unit_zero (S := S3200x256) zero2, View.ld_unit_zero (S := S256x256) zero2,
    View.ld_unit_zero (S := S256) zero1]
  obtain ⟨-, -, e10, e11, -, -, -, -, -, -, -, -, e70, e71, e80, -, -, eA0, eA1⟩ := blocks_at t
  funext j
  obtain ⟨p, q, rfl⟩ : ∃ (p : Fin 3200) (q : Fin 256), j = ix2 p q := ⟨j 0, j 1, eq_ix2 j⟩
  show k0_pay1 (F := Ideal) (k0_pay2 (F := Ideal) (iblk0 V c 1 t)) (iblk0 V c 7 t) (iblk0 V c 8 t) (ix2 p q)
    = Cert.Spec.w2h (V c main_v13) (V c main_arg7) (V c main_arg8) (((cfg0.win 10).blk t).view.emb (ix2 p q))
  rw [w2h_block_apply]
  unfold Cert.Spec.w2h
  refine congrArg₂ (· + ·) (Finset.sum_congr rfl fun k _ => congrArg₂ (· * ·) ?_ ?_) ?_
  · show V c main_v13 (((cfg0.win 1).blk t).view.emb (ix2 p k)) = _
    refine congrArg _ (funext fun a => Fin.ext ?_)
    match a with
    | ⟨0, _⟩ => show win0_1.index t (0 : Fin 2) * 3200 + 1 * p.val = win0_10.index t (0 : Fin 2) * 3200 + 1 * p.val; omega
    | ⟨1, _⟩ => show win0_1.index t (1 : Fin 2) * 256 + 1 * k.val = k.val; omega
  · show V c main_arg7 (((cfg0.win 7).blk t).view.emb (ix2 q k)) = _
    refine congrArg _ (funext fun a => Fin.ext ?_)
    match a with
    | ⟨0, _⟩ => show win0_7.index t (0 : Fin 2) * 256 + 1 * q.val = win0_10.index t (1 : Fin 2) * 256 + 1 * q.val; omega
    | ⟨1, _⟩ => show win0_7.index t (1 : Fin 2) * 256 + 1 * k.val = k.val; omega
  · show V c main_arg8 (((cfg0.win 8).blk t).view.emb (ix1 q)) = _
    refine congrArg _ (funext fun a => Fin.ext ?_)
    match a with
    | ⟨0, _⟩ => show win0_8.index t (0 : Fin 1) * 256 + 1 * q.val = win0_10.index t (1 : Fin 2) * 256 + 1 * q.val; omega

/-- An index of the second output is in point `t`'s block iff each coordinate is in the block's range on its axis. -/
theorem mem_blk10 (t : Fin cfg0.N) (i : S320000x256.Idx) :
    i ∈ ((cfg0.win 10).blk t).view.set ↔ ∀ a : Fin 2, win0_10.index t a * S3200x256.size a ≤ (i a).val ∧ (i a).val < win0_10.index t a * S3200x256.size a + S3200x256.size a := by
  show i ∈ ((View.whole main_v16_1).slice (win0_10.rect t)).set ↔ _
  rw [View.set_slice_whole, Rect.mem_set_unit]
  exact Iff.rfl

/-- Every index of the second output is in some point's block: row `r` in the block of point `r / 3200`. -/
theorem cover10 (i : S320000x256.Idx) : ∃ t : Fin cfg0.N, (cfg0.win 10).flush t = true ∧ i ∈ ((cfg0.win 10).blk t).view.set := by
  have hi0 : (i 0).val < 320000 := (i 0).isLt
  have hi1 : (i 1).val < 256 := (i 1).isLt
  obtain ⟨t, -, q0⟩ := block_row_onto ⟨(i 0).val / 3200, by omega⟩
  obtain ⟨-, -, -, -, -, -, -, -, -, -, -, -, -, -, -, -, -, -, q1⟩ := blocks_at t
  refine ⟨t, flush0_10 t, ?_⟩
  rw [mem_blk10]
  intro a
  match a with
  | ⟨0, _⟩ => show win0_10.index t (0 : Fin 2) * 3200 ≤ (i 0).val ∧ (i 0).val < win0_10.index t (0 : Fin 2) * 3200 + 3200; simp only [] at q0; omega
  | ⟨1, _⟩ => show win0_10.index t (1 : Fin 2) * 256 ≤ (i 1).val ∧ (i 1).val < win0_10.index t (1 : Fin 2) * 256 + 256; omega

/-- The second output array after the region: the specification's `w2h` of the target rows, the output weight and its bias. -/
theorem final0_10 (c : Dev nD) :
    (dat0 (F := Ideal) V c).arrAt 10 cfg0.N = Cert.Spec.w2h (V c main_v13) (V c main_arg7) (V c main_arg8) :=
  (dat0 (F := Ideal) V c).arrAt_eq_of_cover 10 (Cert.Spec.w2h (V c main_v13) (V c main_arg7) (V c main_arg8))
    (fun t _ => flushed_eq10 V c t) (cover10)

end Cert.KernelIdeal.Reg0

end
-- ==== Proof.Region1.lean ====
/-
  Region 1 (the second kernel launch, 100 grid points over blocks of 3200 edges): its output array when the region is left
  is every edge's row scaled by that edge's softmax weight.

  Point `t` reads rows 3200·t … 3200·t + 3199 of the per-edge exponentials `E` (one column), of the per-edge denominators
  `D` (one column) and of the projected target rows `H` (256 columns), and writes the same rows of the output: entry
  `(r, j)` is `(E[r,0] / D[r,0]) · H[r,j]`, the quotient broadcast along the row.  The hundred blocks tile the 320000 rows.
-/
import proofs.«126923_j40827959116587_1_alg».proof.Proof.Gen.KernelIdeal.Frame
import proofs.«126923_j40827959116587_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The body's value at entry `y` of the block: the quotient of the two one-column blocks at `y`'s row, times the wide
    block at `y` (the shape casts are of a shape to itself; the broadcast reads column 0 of the row). -/
theorem body_apply (v0 v2 : Vec Ideal S3200x1 .f32) (v5 : Vec Ideal S3200x256 .f32) (y : S3200x256.Idx) :
    k1_pay1 (F := Ideal) v0 v2 v5 y = Ideal.div (v0 (ix2 (y 0) (0 : Fin 1))) (v2 (ix2 (y 0) (0 : Fin 1))) * v5 y := by
  unfold k1_pay1
  rw [shapeCast_self, shapeCast_self, shapeCast_self]
  show ((broadcastTo S3200x256 (divf (F := Ideal) v0 v2) broadcasts_S3200x1_S3200x256 : FVec Ideal S3200x256 .f32) y : EReal) * v5 y = _
  rw [broadcastTo_apply (divf (F := Ideal) v0 v2) broadcasts_S3200x1_S3200x256 y (ix2 (y 0) (0 : Fin 1)) (fun a => by
    match a with
    | ⟨0, _⟩ => rfl
    | ⟨1, _⟩ => rfl)]
  rfl

/-- All four blocks move together: at point `t` each is block row `t`, block column 0. -/
theorem blocks_at : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = win1_3.index t (0 : Fin 2)
    ∧ win1_2.index t (1 : Fin 2) = win1_3.index t (1 : Fin 2)
    ∧ win1_3.index t (0 : Fin 2) = t.val ∧ win1_3.index t (1 : Fin 2) = 0 :=
  (by decide +kernel : ∀ t : Fin grid1.N, _)

/-- Every block row is some point's. -/
theorem block_row_onto : ∀ q : Fin 100, ∃ t : Fin cfg1.N, win1_3.index t (0 : Fin 2) = q.val ∧ win1_3.index t (1 : Fin 2) = 0 :=
  (by decide +kernel : ∀ q : Fin 100, ∃ t : Fin grid1.N, win1_3.index t (0 : Fin 2) = q.val ∧ win1_3.index t (1 : Fin 2) = 0)

/-- What point `t` writes back is block `t` of the weighted rows of the arrays the region finds. -/
theorem flushed_eq (c : Dev nD) (t : Fin cfg1.N) :
    (dat1 (F := Ideal) V c).flushed 3 t
      = ((cfg1.win 3).blk t).view.read (Elt Ideal) (Cert.Spec.weighted (V c main_v16_0) (V c main_v28) (V c main_v16_1)) := by
  show (cfg1.win 3).cut (grid1.coords t) ((dat1 (F := Ideal) V c).after 3 t) = _
  rw [after1_3]
  unfold out1_3
  rw [View.canon_unit_zero zero2]
  simp only [View.ld_unit_zero (S := S3200x1) zero2, View.ld_unit_zero (S := S3200x256) zero2]
  obtain ⟨e00, e01, e10, e11, e20, e21, -, e31⟩ := blocks_at t
  funext j
  show k1_pay1 (F := Ideal) (iblk1 V c 0 t) (iblk1 V c 1 t) (iblk1 V c 2 t) j
    = Cert.Spec.weighted (V c main_v16_0) (V c main_v28) (V c main_v16_1) (((cfg1.win 3).blk t).view.emb j)
  rw [body_apply]
  unfold Cert.Spec.weighted
  refine congrArg₂ (· * ·) (congrArg₂ Ideal.div ?_ ?_) ?_
  · show V c main_v16_0 (((cfg1.win 0).blk t).view.emb (ix2 (j 0) (0 : Fin 1))) = _
    refine congrArg _ (funext fun a => Fin.ext ?_)
    match a with
    | ⟨0, _⟩ => show win1_0.index t (0 : Fin 2) * 3200 + 1 * (j 0).val = win1_3.index t (0 : Fin 2) * 3200 + 1 * (j 0).val; omega
    | ⟨1, _⟩ => show win1_0.index t (1 : Fin 2) * 1 + 1 * 0 = 0; omega
  · show V c main_v28 (((cfg1.win 1).blk t).view.emb (ix2 (j 0) (0 : Fin 1))) = _
    refine congrArg _ (funext fun a => Fin.ext ?_)
    match a with
    | ⟨0, _⟩ => show win1_1.index t (0 : Fin 2) * 3200 + 1 * (j 0).val = win1_3.index t (0 : Fin 2) * 3200 + 1 * (j 0).val; omega
    | ⟨1, _⟩ => show win1_1.index t (1 : Fin 2) * 1 + 1 * 0 = 0; omega
  · show V c main_v16_1 (((cfg1.win 2).blk t).view.emb j) = _
    refine congrArg _ (funext fun a => Fin.ext ?_)
    match a with
    | ⟨0, _⟩ => show win1_2.index t (0 : Fin 2) * 3200 + 1 * (j 0).val = win1_3.index t (0 : Fin 2) * 3200 + 1 * (j 0).val; omega
    | ⟨1, _⟩ => show win1_2.index t (1 : Fin 2) * 256 + 1 * (j 1).val = win1_3.index t (1 : Fin 2) * 256 + 1 * (j 1).val; omega

/-- An index of the output array is in point `t`'s block iff each coordinate is in the block's range on its axis. -/
theorem mem_blk (t : Fin cfg1.N) (i : S320000x256.Idx) :
    i ∈ ((cfg1.win 3).blk t).view.set ↔ ∀ a : Fin 2, win1_3.index t a * S3200x256.size a ≤ (i a).val ∧ (i a).val < win1_3.index t a * S3200x256.size a + S3200x256.size a := by
  show i ∈ ((View.whole main_v29).slice (win1_3.rect t)).set ↔ _
  rw [View.set_slice_whole, Rect.mem_set_unit]
  exact Iff.rfl

/-- Every index of the output array is in some point's block: row `r` in the block of point `r / 3200`. -/
theorem cover (i : S320000x256.Idx) : ∃ t : Fin cfg1.N, (cfg1.win 3).flush t = true ∧ i ∈ ((cfg1.win 3).blk t).view.set := by
  have hi0 : (i 0).val < 320000 := (i 0).isLt
  have hi1 : (i 1).val < 256 := (i 1).isLt
  obtain ⟨t, q0, q1⟩ := block_row_onto ⟨(i 0).val / 3200, by omega⟩
  refine ⟨t, flush1_3 t, ?_⟩
  rw [mem_blk]
  intro a
  match a with
  | ⟨0, _⟩ => show win1_3.index t (0 : Fin 2) * 3200 ≤ (i 0).val ∧ (i 0).val < win1_3.index t (0 : Fin 2) * 3200 + 3200; simp only [] at q0; omega
  | ⟨1, _⟩ => show win1_3.index t (1 : Fin 2) * 256 ≤ (i 1).val ∧ (i 1).val < win1_3.index t (1 : Fin 2) * 256 + 256; omega

/-- The output array when the region is left. -/
theorem final1_3 (c : Dev nD) :
    (dat1 (F := Ideal) V c).arrAt 3 cfg1.N = Cert.Spec.weighted (V c main_v16_0) (V c main_v28) (V c main_v16_1) :=
  (dat1 (F := Ideal) V c).arrAt_eq_of_cover 3 (Cert.Spec.weighted (V c main_v16_0) (V c main_v28) (V c main_v16_1))
    (fun t _ => flushed_eq V c t) (cover)

end Cert.KernelIdeal.Reg1

end
-- ==== Proof.Region2.lean ====
/-
  Region 2 (the third kernel launch, 10 grid points over blocks of 1000 nodes): its output array when the region is left
  is the leaky rectifier of the array it reads, entry by entry.

  Point `t` reads rows 1000·t … 1000·t + 999 of the input (all 256 columns) and writes the same rows of the output; the
  body is the rectifier applied to the loaded block.  The ten blocks tile the 10000 rows, so the whole output array is the
  rectifier of the whole input array.
-/
import proofs.«126923_j40827959116587_1_alg».proof.Proof.Gen.KernelIdeal.Frame
import proofs.«126923_j40827959116587_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The body's value at an entry of the block: the rectifier of the loaded block there (the shape cast is of a shape
    to itself). -/
theorem body_apply (x : Vec Ideal S1000x256 .f32) (y : S1000x256.Idx) :
    k2_pay1 (F := Ideal) x y = Cert.Spec.lrelu (x y) := by
  unfold k2_pay1
  rw [shapeCast_self]
  rfl

/-- Input and output blocks move together: at point `t` both are block row `t`, block column 0. -/
theorem blocks_at : ∀ t : Fin cfg2.N, win2_0.index t (0 : Fin 2) = win2_1.index t (0 : Fin 2)
    ∧ win2_0.index t (1 : Fin 2) = win2_1.index t (1 : Fin 2)
    ∧ win2_1.index t (0 : Fin 2) = t.val ∧ win2_1.index t (1 : Fin 2) = 0 :=
  (by decide +kernel : ∀ t : Fin grid2.N, _)

/-- Every block row is some point's. -/
theorem block_row_onto : ∀ q : Fin 10, ∃ t : Fin cfg2.N, win2_1.index t (0 : Fin 2) = q.val ∧ win2_1.index t (1 : Fin 2) = 0 :=
  (by decide +kernel : ∀ q : Fin 10, ∃ t : Fin grid2.N, win2_1.index t (0 : Fin 2) = q.val ∧ win2_1.index t (1 : Fin 2) = 0)

/-- What point `t` writes back is block `t` of the rectified input array. -/
theorem flushed_eq (c : Dev nD) (t : Fin cfg2.N) :
    (dat2 (F := Ideal) V c).flushed 1 t = ((cfg2.win 1).blk t).view.read (Elt Ideal) (Cert.Spec.leaky (V c main_v32)) := by
  show (cfg2.win 1).cut (grid2.coords t) ((dat2 (F := Ideal) V c).after 1 t) = _
  rw [after2_1]
  unfold out2_1
  rw [View.canon_unit_zero zero2]
  simp only [View.ld_unit_zero (S := S1000x256) zero2]
  obtain ⟨e0, e1, -, -⟩ := blocks_at t
  funext j
  show k2_pay1 (F := Ideal) (iblk2 V c 0 t) j = Cert.Spec.lrelu (V c main_v32 (((cfg2.win 1).blk t).view.emb j))
  rw [body_apply]
  show Cert.Spec.lrelu (V c main_v32 (((cfg2.win 0).blk t).view.emb j)) = _
  have h0 : ((cfg2.win 0).blk t).view.emb j = ((cfg2.win 1).blk t).view.emb j := by
    funext a; apply Fin.ext
    match a with
    | ⟨0, _⟩ => show win2_0.index t (0 : Fin 2) * 1000 + 1 * (j 0).val = win2_1.index t (0 : Fin 2) * 1000 + 1 * (j 0).val; omega
    | ⟨1, _⟩ => show win2_0.index t (1 : Fin 2) * 256 + 1 * (j 1).val = win2_1.index t (1 : Fin 2) * 256 + 1 * (j 1).val; omega
  rw [h0]

/-- An index of the output array is in point `t`'s block iff each coordinate is in the block's range on its axis. -/
theorem mem_blk (t : Fin cfg2.N) (i : S10000x256.Idx) :
    i ∈ ((cfg2.win 1).blk t).view.set ↔ ∀ a : Fin 2, win2_1.index t a * S1000x256.size a ≤ (i a).val ∧ (i a).val < win2_1.index t a * S1000x256.size a + S1000x256.size a := by
  show i ∈ ((View.whole main_v33).slice (win2_1.rect t)).set ↔ _
  rw [View.set_slice_whole, Rect.mem_set_unit]
  exact Iff.rfl

/-- Every index of the output array is in some point's block: row `r` in the block of point `r / 1000`. -/
theorem cover (i : S10000x256.Idx) : ∃ t : Fin cfg2.N, (cfg2.win 1).flush t = true ∧ i ∈ ((cfg2.win 1).blk t).view.set := by
  have hi0 : (i 0).val < 10000 := (i 0).isLt
  have hi1 : (i 1).val < 256 := (i 1).isLt
  obtain ⟨t, q0, q1⟩ := block_row_onto ⟨(i 0).val / 1000, by omega⟩
  refine ⟨t, flush2_1 t, ?_⟩
  rw [mem_blk]
  intro a
  match a with
  | ⟨0, _⟩ => show win2_1.index t (0 : Fin 2) * 1000 ≤ (i 0).val ∧ (i 0).val < win2_1.index t (0 : Fin 2) * 1000 + 1000; simp only [] at q0; omega
  | ⟨1, _⟩ => show win2_1.index t (1 : Fin 2) * 256 ≤ (i 1).val ∧ (i 1).val < win2_1.index t (1 : Fin 2) * 256 + 256; omega

/-- The output array when the region is left. -/
theorem final2_1 (c : Dev nD) :
    (dat2 (F := Ideal) V c).arrAt 1 cfg2.N = Cert.Spec.leaky (V c main_v32) :=
  (dat2 (F := Ideal) V c).arrAt_eq_of_cover 1 (Cert.Spec.leaky (V c main_v32)) (fun t _ => flushed_eq V c t) (cover)

end Cert.KernelIdeal.Reg2

end
-- ==== Proof.RefValue.lean ====
/-
  The reference program's result, read stage by stage, is the specification's layer: its attention exponentials are
  `expE'` of the two gathered row arrays and the whole input weight, its projected target rows are `w2h`, the edge
  weighting is `weighted`, the last rectifier is `leaky`; the gathers and segment sums in between stay unopened.
-/
import proofs.«126923_j40827959116587_1_alg».proof.Proof.Gen.ReferenceIdeal.Read
import proofs.«126923_j40827959116587_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## Three facts that mention no stage -/

/-- A sum of 512 terms is the sum of its first 256 terms plus the sum of its last 256 terms. -/
theorem sum_halves {M : Type} [AddCommMonoid M] (f : Fin 512 → M) :
    ∑ k : Fin 512, f k
      = (∑ k : Fin 256, f ⟨k.val, by omega⟩) + (∑ k : Fin 256, f ⟨256 + k.val, by omega⟩) :=
  Fin.sum_univ_add (a := 256) (b := 256) f

/-- Two 320000 × 256 arrays joined along the columns, read at a column `k < 256`: the first array's entry. -/
theorem concat_left {α : Type} (s t : S320000x256.Idx → α) (h : Shape.Concatenates [S320000x256, S320000x256] S320000x512 1)
    (e : Fin 320000) (k : Fin 256) :
    concatenate S320000x512 1 [⟨S320000x256, s⟩, ⟨S320000x256, t⟩] h (ix2 e (⟨k.val, by omega⟩ : Fin 512)) = s (ix2 e k) :=
  concatenate_pair_apply_left 1 s t h _ rfl (ix2 e k) (fun b => match b with
    | ⟨0, _⟩ => rfl
    | ⟨1, _⟩ => rfl)

/-- The same at a column `256 + k`: the second array's entry at column `k`. -/
theorem concat_right {α : Type} (s t : S320000x256.Idx → α) (h : Shape.Concatenates [S320000x256, S320000x256] S320000x512 1)
    (e : Fin 320000) (k : Fin 256) :
    concatenate S320000x512 1 [⟨S320000x256, s⟩, ⟨S320000x256, t⟩] h (ix2 e (⟨256 + k.val, by omega⟩ : Fin 512)) = t (ix2 e k) :=
  concatenate_pair_apply_right 1 s t h _ rfl rfl (ix2 e k) (fun b hb => match b, hb with
    | ⟨0, _⟩, _ => rfl
    | ⟨1, _⟩, hb => absurd rfl hb)
    (show k.val + 256 = 256 + k.val from Nat.add_comm _ _)

variable (x0 : (⟨S10000x256, .f32⟩ : BufTy).Contents (Elt Ideal)) (x1 x2 : (⟨S320000, .i32⟩ : BufTy).Contents (Elt Ideal))
  (x3 : (⟨S256x512, .f32⟩ : BufTy).Contents (Elt Ideal)) (x4 : (⟨S256, .f32⟩ : BufTy).Contents (Elt Ideal))
  (x5 : (⟨S1x256, .f32⟩ : BufTy).Contents (Elt Ideal)) (x6 : (⟨S1, .f32⟩ : BufTy).Contents (Elt Ideal))
  (x7 : (⟨S256x256, .f32⟩ : BufTy).Contents (Elt Ideal)) (x8 : (⟨S256, .f32⟩ : BufTy).Contents (Elt Ideal))

/-! ## The attention exponentials -/

/-- The joined rows' index in the 512-term product: row `e`, column the summation index. -/
theorem lidx16 (e : Fin 320000) (j : Fin 256) (k : Fin 512) : lidx_main_v16 (ix2 e j) k = ix2 e k :=
  funext fun a => match a with | ⟨0, _⟩ => rfl | ⟨1, _⟩ => rfl

/-- The pre-activation at edge `e`, feature `j`: the 512-term product of the joined rows with row `j` of the weight
    splits into the source rows against columns `k` and the target rows against columns `256 + k`; the bias is
    broadcast along the edges. -/
theorem v19_at (e : Fin 320000) (j : Fin 256) :
    val_main_v19 (F := Ideal) x0 x1 x2 x3 x4 (ix2 e j)
      = Cert.Spec.pre' (val_main_v6 (F := Ideal) x0 x1) (val_main_v13 (F := Ideal) x0 x2) x3 x4 e j := by
  rw [val_main_v19_apply, val_main_v16_apply, val_main_v18_apply, val_main_v17_apply, sum_halves]
  unfold val_main_v14 Cert.Spec.pre'
  generalize val_main_v6 (F := Ideal) x0 x1 = s
  generalize val_main_v13 (F := Ideal) x0 x2 = t
  rw [Ideal.addf_def]
  congr 1
  · congr 1
    · refine Finset.sum_congr rfl fun k _ => ?_
      rw [val_main_v15_apply, lidx16]
      exact congrArg₂ (· * ·) (concat_left s t _ e k)
        (congrArg x3 (funext fun a => match a with | ⟨0, _⟩ => rfl | ⟨1, _⟩ => rfl))
    · refine Finset.sum_congr rfl fun k _ => ?_
      rw [val_main_v15_apply, lidx16]
      exact congrArg₂ (· * ·) (concat_right s t _ e k)
        (congrArg x3 (funext fun a => match a with | ⟨0, _⟩ => rfl | ⟨1, _⟩ => rfl))
  · exact congrArg x4 (funext fun a => match a with | ⟨0, _⟩ => rfl)

/-- The rectified pre-activation: the select on `≥ 0` between the value and the scaled value is `lrelu`. -/
theorem v24_at (e : Fin 320000) (j : Fin 256) :
    val_main_v24 (F := Ideal) x0 x1 x2 x3 x4 (ix2 e j)
      = Cert.Spec.lrelu (Cert.Spec.pre' (val_main_v6 (F := Ideal) x0 x1) (val_main_v13 (F := Ideal) x0 x2) x3 x4 e j) := by
  rw [← v19_at, val_main_v24_apply, val_main_v21_apply, val_main_v23_apply, val_main_v20_apply, val_main_v22_apply,
    val_main_cst_apply, val_main_cst_3_apply]
  generalize val_main_v19 (F := Ideal) x0 x1 x2 x3 x4 (ix2 e j) = y
  unfold Cert.Spec.lrelu
  rfl

/-- The reference's attention exponentials are the specification's, over the whole 256 × 512 weight: the product of the
    concatenated rows with the transposed weight splits into the source half's sum and the target half's sum. -/
theorem ref_expE :
    val_main_v30 (F := Ideal) x0 x1 x2 x3 x4 x5 x6
      = Cert.Spec.expE' (val_main_v6 (F := Ideal) x0 x1) (val_main_v13 (F := Ideal) x0 x2) x3 x4 x5 x6 := by
  funext i
  obtain ⟨e, z, rfl⟩ : ∃ (e : Fin 320000) (z : Fin 1), i = ix2 e z := ⟨i 0, i 1, eq_ix2 i⟩
  obtain rfl : z = 0 := Fin.fin_one_eq_zero z
  rw [val_main_v30_apply, val_main_v29_apply, val_main_v26_apply, val_main_v28_apply, val_main_v27_apply,
    Ideal.hostUnary_exp_def, Ideal.addf_def]
  unfold Cert.Spec.expE'
  congr 1
  congr 1
  · refine Finset.sum_congr rfl fun j _ => ?_
    rw [val_main_v25_apply]
    have hl : lidx_main_v26 (ix2 e (0 : Fin 1)) j = ix2 e j :=
      funext fun a => match a with | ⟨0, _⟩ => rfl | ⟨1, _⟩ => rfl
    rw [hl, v24_at]
    exact congrArg (_ * x5 ·) (funext fun a => match a with | ⟨0, _⟩ => rfl | ⟨1, _⟩ => rfl)
  · exact congrArg x6 (funext fun a => match a with | ⟨0, _⟩ => rfl)

/-! ## The projected target rows, the weighting, the last rectifier -/

/-- The reference's projected target rows. -/
theorem ref_w2h :
    val_main_v48 (F := Ideal) x0 x2 x7 x8 = Cert.Spec.w2h (val_main_v13 (F := Ideal) x0 x2) x7 x8 := by
  funext i
  obtain ⟨e, j, rfl⟩ : ∃ (e : Fin 320000) (j : Fin 256), i = ix2 e j := ⟨i 0, i 1, eq_ix2 i⟩
  rw [val_main_v48_apply, val_main_v45_apply, val_main_v47_apply, val_main_v46_apply, Ideal.addf_def]
  unfold Cert.Spec.w2h
  generalize val_main_v13 (F := Ideal) x0 x2 = t
  congr 1
  · refine Finset.sum_congr rfl fun k _ => ?_
    rw [val_main_v44_apply]
    exact congrArg₂ (· * ·) (congrArg t (funext fun a => match a with | ⟨0, _⟩ => rfl | ⟨1, _⟩ => rfl))
      (congrArg x7 (funext fun a => match a with | ⟨0, _⟩ => rfl | ⟨1, _⟩ => rfl))
  · exact congrArg x8 (funext fun a => match a with | ⟨0, _⟩ => rfl)

/-- The reference's weighted edge rows: quotient, broadcast along the features, product. -/
theorem ref_weighted :
    val_main_v50 (F := Ideal) x0 x1 x2 x3 x4 x5 x6 x7 x8
      = Cert.Spec.weighted (val_main_v30 (F := Ideal) x0 x1 x2 x3 x4 x5 x6) (val_main_v42 (F := Ideal) x0 x1 x2 x3 x4 x5 x6)
          (val_main_v48 (F := Ideal) x0 x2 x7 x8) := by
  funext i
  obtain ⟨e, j, rfl⟩ : ∃ (e : Fin 320000) (j : Fin 256), i = ix2 e j := ⟨i 0, i 1, eq_ix2 i⟩
  rw [val_main_v50_apply, val_main_v49_apply, val_main_v43_apply, Ideal.mulf_def, Ideal.hostDivf_def]
  unfold Cert.Spec.weighted
  have hq : idx_main_v49 (ix2 e j) = ix2 e (0 : Fin 1) :=
    funext fun a => match a with | ⟨0, _⟩ => rfl | ⟨1, _⟩ => rfl
  rw [hq]

/-- The reference's last rectifier. -/
theorem ref_leaky :
    val_main_v58 (F := Ideal) x0 x1 x2 x3 x4 x5 x6 x7 x8 = Cert.Spec.leaky (val_main_v53 (F := Ideal) x0 x1 x2 x3 x4 x5 x6 x7 x8) := by
  funext i
  rw [val_main_v58_apply, val_main_v55_apply, val_main_v57_apply, val_main_v54_apply, val_main_v56_apply,
    val_main_cst_9_apply, val_main_cst_10_apply]
  unfold Cert.Spec.leaky Cert.Spec.lrelu
  generalize val_main_v53 (F := Ideal) x0 x1 x2 x3 x4 x5 x6 x7 x8 i = y
  rfl

/-! ## The whole layer -/

/-- Each edge's denominator from the per-edge exponentials: their segment sum over target nodes, plus the small
    constant, gathered back at the edge's (wrapped) target node.  The host's scatter-add and gather, unopened. -/
def back (E : FVec Ideal Cert.Spec.SEx1 .f32) : FVec Ideal Cert.Spec.SEx1 .f32 :=
  Host.gather gather_S10000x1_S320000x1_S320000x1_1_0_n_n_0_1_11
    (addf (Host.scatterAdd scatter_S10000x1_S320000x1_S320000x1_1_0_0_1 (val_main_v31 (F := Ideal)) (val_main_v32 (F := Ideal) x2) E)
      (val_main_v34 (F := Ideal)))
    (val_main_v41 (F := Ideal) x2)

/-- The weighted edge rows added into their target nodes.  The host's scatter-add, unopened. -/
def agg (X : FVec Ideal Cert.Spec.SEx256 .f32) : FVec Ideal Cert.Spec.SNx256 .f32 :=
  Host.scatterAdd scatter_S10000x256_S320000x1_S320000x256_1_0_0_1 (val_main_v51 (F := Ideal)) (val_main_v52 (F := Ideal) x2) X

/-- The denominators' stage is `back` of the exponentials' stage: the same scatter-add, constant and gather. -/
theorem v42_back :
    val_main_v42 (F := Ideal) x0 x1 x2 x3 x4 x5 x6 = back x2 (val_main_v30 (F := Ideal) x0 x1 x2 x3 x4 x5 x6) := by
  unfold val_main_v42 val_main_v35 val_main_v33 back
  rfl

/-- The aggregated stage is `agg` of the weighted stage: the same scatter-add. -/
theorem v53_agg :
    val_main_v53 (F := Ideal) x0 x1 x2 x3 x4 x5 x6 x7 x8 = agg x2 (val_main_v50 (F := Ideal) x0 x1 x2 x3 x4 x5 x6 x7 x8) := by
  unfold val_main_v53 agg
  rfl

/-- The reference's result is the specification's layer of its own gathers and segment sums. -/
theorem ref_value :
    val_main_v58 (F := Ideal) x0 x1 x2 x3 x4 x5 x6 x7 x8
      = Cert.Spec.layer (back x2) (agg x2) (val_main_v6 (F := Ideal) x0 x1) (val_main_v13 (F := Ideal) x0 x2) x3 x4 x5 x6 x7 x8 := by
  rw [ref_leaky, v53_agg, ref_weighted, v42_back, ref_expE, ref_w2h]
  rfl

end Cert.ReferenceIdeal.RefValue

end
-- ==== Proof.Bridge.lean ====
/-
  Both programs through the same host operations.

  The idealized kernel's gathers, segment sums and gather-back are the very operations the reference applies (the same
  dimension records, the same wrapped indices, the same constants), so each of the kernel's host stretches is the
  reference's stage of the same inputs.  With the three regions' closed forms this makes the kernel's result the
  specification's layer of exactly the pieces the reference's result is the layer of.
-/
import proofs.«126923_j40827959116587_1_alg».proof.Proof.KernelValue
import proofs.«126923_j40827959116587_1_alg».proof.Proof.Region0
import proofs.«126923_j40827959116587_1_alg».proof.Proof.Region1
import proofs.«126923_j40827959116587_1_alg».proof.Proof.Region2
import proofs.«126923_j40827959116587_1_alg».proof.Proof.RefValue

set_option maxRecDepth 16384

noncomputable section

namespace Cert.Bridge

open Cert.KernelIdeal Cert.KernelIdeal.Gen Cert.KernelIdeal.KValue
open Idealize.ShloMosaic Idealize.ShloMosaic.TcCoe Idealize.SL.Sem Idealize.ShloMosaic.StableHlo

variable (m : (ℓ : Loc nD τ sig) → Buf (Elt Ideal) ℓ) (ρ : Dev nD → PrngReg)

/-- The kernel's gathered source rows are the reference's stage of the node features and the source indices. -/
theorem rows_src (c : Dev nD) : V1 m ρ c main_v6
    = Cert.ReferenceIdeal.Read.val_main_v6 (F := Ideal) (m ((c : Thread nD τ).loc main_arg0)) (m ((c : Thread nD τ).loc main_arg1)) := by
  show StableHlo.after hostOps0 (W0 m ρ c) (Proc.devRef .tc main_v6) = _
  after_results
  rfl

/-- The kernel's gathered target rows are the reference's stage of the node features and the target indices. -/
theorem rows_tgt (c : Dev nD) : V1 m ρ c main_v13
    = Cert.ReferenceIdeal.Read.val_main_v13 (F := Ideal) (m ((c : Thread nD τ).loc main_arg0)) (m ((c : Thread nD τ).loc main_arg2)) := by
  show StableHlo.after hostOps0 (W0 m ρ c) (Proc.devRef .tc main_v13) = _
  after_results
  rfl

/-- The stretch between regions 0 and 1 is the reference's denominators of the exponentials region 0 left. -/
theorem back_eq (c : Dev nD) : V3 m ρ c main_v28
    = Cert.ReferenceIdeal.RefValue.back (m ((c : Thread nD τ).loc main_arg2)) (W2 m ρ c (Proc.devRef .tc main_v16_0)) := by
  show StableHlo.after hostOps1 (W2 m ρ c) (Proc.devRef .tc main_v28) = _
  after_results_simp
  rw [W2_arg2]
  rfl

/-- The stretch between regions 1 and 2 is the reference's aggregation of the rows region 1 left. -/
theorem agg_eq (c : Dev nD) : V5 m ρ c main_v32
    = Cert.ReferenceIdeal.RefValue.agg (m ((c : Thread nD τ).loc main_arg2)) (W4 m ρ c (Proc.devRef .tc main_v29)) := by
  show StableHlo.after hostOps2 (W4 m ρ c) (Proc.devRef .tc main_v32) = _
  after_results_simp
  rw [W4_arg2]
  rfl

/-- The idealized kernel's result array is the specification's layer of the reference's own host pieces. -/
theorem kernel_value (c : Dev nD) :
    W6 m ρ c (Proc.devRef .tc main_v33)
      = Cert.Spec.layer (Cert.ReferenceIdeal.RefValue.back (m ((c : Thread nD τ).loc main_arg2)))
          (Cert.ReferenceIdeal.RefValue.agg (m ((c : Thread nD τ).loc main_arg2)))
          (Cert.ReferenceIdeal.Read.val_main_v6 (F := Ideal) (m ((c : Thread nD τ).loc main_arg0)) (m ((c : Thread nD τ).loc main_arg1)))
          (Cert.ReferenceIdeal.Read.val_main_v13 (F := Ideal) (m ((c : Thread nD τ).loc main_arg0)) (m ((c : Thread nD τ).loc main_arg2)))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) :=
  kernel_value_of m ρ Cert.KernelIdeal.Reg0.final0_9 Cert.KernelIdeal.Reg0.final0_10 Cert.KernelIdeal.Reg1.final1_3
    Cert.KernelIdeal.Reg2.final2_1 c _ _ _ _ (rows_src m ρ c) (rows_tgt m ρ c) (back_eq m ρ c) (agg_eq m ρ c)

end Cert.Bridge

end
-- ==== Proof.lean ====
/-
  The certificate of a graph-attention layer: a Pallas program of three kernel launches against its jnp reference, equal
  over the extended reals.

  Both programs gather each edge's source and target node rows, take a leaky-rectified affine map of the pair, contract
  it with an attention vector and exponentiate; normalise by the sum of those exponentials over the edges sharing the
  target node (plus a small constant); weight the target row's second affine image by that quotient; add the weighted rows
  into their target nodes; and rectify.  The kernel program computes the affine maps, the quotient and the rectifier in
  three launches over blocks of edges or nodes, and leaves the gathers and segment sums to the same host operations the
  reference uses.  At the extended reals the only difference is a grouping of sums: the reference contracts the
  concatenated source-and-target row (512 terms) with the whole input weight, the kernel contracts each half (256 terms)
  with its half of the weight and adds.  Sums of extended reals may be regrouped freely, so no finiteness is used.

  Spec.lean states the layer entry by entry; Region0/1/2.lean show each launch's output array is its part of it;
  KernelValue.lean traces the result buffer back through the launches and host stretches; RefValue.lean reads the
  reference's stages as the same parts; Bridge.lean identifies the host operations on the two sides; KernelRun.lean is the
  program's run with the result buffer named.
-/
import proofs.«126923_j40827959116587_1_alg».proof.Defs
import proofs.«126923_j40827959116587_1_alg».proof.Proof.Gen.Kernel
import proofs.«126923_j40827959116587_1_alg».proof.Proof.Gen.Kernel.Skeleton
import proofs.«126923_j40827959116587_1_alg».proof.Proof.Gen.Kernel.Launch
import proofs.«126923_j40827959116587_1_alg».proof.Proof.Gen.Kernel.Points
import proofs.«126923_j40827959116587_1_alg».proof.Proof.Gen.Kernel.Frame
import proofs.«126923_j40827959116587_1_alg».proof.Proof.Gen.KernelIdeal
import proofs.«126923_j40827959116587_1_alg».proof.Proof.Gen.KernelIdeal.Skeleton
import proofs.«126923_j40827959116587_1_alg».proof.Proof.Gen.KernelIdeal.Launch
import proofs.«126923_j40827959116587_1_alg».proof.Proof.Gen.KernelIdeal.Points
import proofs.«126923_j40827959116587_1_alg».proof.Proof.Gen.KernelIdeal.Frame
import proofs.«126923_j40827959116587_1_alg».proof.Proof.Gen.ReferenceIdeal
import proofs.«126923_j40827959116587_1_alg».proof.Proof.Gen.ReferenceIdeal.Run
import proofs.«126923_j40827959116587_1_alg».proof.Proof.Gen.ReferenceIdeal.Read
import proofs.«126923_j40827959116587_1_alg».proof.Proof.Gen.Pre_finite_inputs
import proofs.«126923_j40827959116587_1_alg».proof.Proof.KernelRun
import proofs.«126923_j40827959116587_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result array: each is the
    specification's layer of the same gathered rows, the same host segment sums and the same remaining arguments. -/
theorem algebraic : Cert.algebraic_KernelIdeal_ReferenceIdeal := by
  intro m ρ m' ρ' _ hagree
  refine ⟨fun c => Cert.KernelIdeal.Gen.W6 (F := Ideal) m ρ c (Proc.devRef .tc Cert.KernelIdeal.main_v33),
    Cert.KernelIdeal.NamedRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.RefValue.ref_value,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.Bridge.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
